-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x131072 : Shape := ⟨2, ![1024, 131072]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S1024x131072 : S_.BroadcastsInDim S1024x131072 (![] : Fin 0 → Fin S1024x131072.rank)
  reducesTo_S1024x131072_S_d0_1 : S1024x131072.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S16x1 .f32) (main_arg6 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1024x131072 .f32) (main_arg1 : FVec F S1024x64 .f32) (main_arg2 : FVec F S64 .f32) (main_arg3 : FVec F S64x16 .f32) (main_arg4 : FVec F S16 .f32) (main_arg5 : FVec F S16x1 .f32) (main_arg6 : FVec F S1 .f32) : IVec S_ 1 :=
  let main_v0 : FVec F S1024x131072 .f32 := Host.absf main_arg0
  let main_cst : FVec F S_ .f32 := constant S_ .f32 0x7F800000#32
  let main_v1 : FVec F S1024x131072 .f32 := broadcastInDim S1024x131072 ![] bcast_S_S1024x131072 main_cst
  let main_v2 : IVec S1024x131072 1 := cmpf .olt main_v0 main_v1
  let main_c : IVec S_ 1 := constantI S_ 1 1#1
  let main_v3 : IVec S_ 1 := (fun x v => Host.reduce IntOp.andi x v reducesTo_S1024x131072_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S1024x131072 : Shape := ⟨2, ![1024, 131072]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S64x1 : Shape := ⟨2, ![64, 1]⟩
abbrev S1x1 : Shape := ⟨2, ![1, 1]⟩
abbrev S1x131072 : Shape := ⟨2, ![1, 131072]⟩
abbrev S1024x2048 : Shape := ⟨2, ![1024, 2048]⟩
abbrev S1x2048 : Shape := ⟨2, ![1, 2048]⟩
abbrev S64x2048 : Shape := ⟨2, ![64, 2048]⟩
abbrev S16x2048 : Shape := ⟨2, ![16, 2048]⟩

abbrev nBuf : Space → Nat
  | .hbm => 11
  | .vmem => 10
  | .smem => 0
  | _ => 0

abbrev bufTy : (tb : Table) → Fin (tcTables nBuf tb) → BufTy
  | .hbm, ⟨0, _⟩ => ⟨S1024x131072, .f32⟩
  | .hbm, ⟨1, _⟩ => ⟨S1024x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S64x1, .f32⟩
  | .hbm, ⟨8, _⟩ => ⟨S16x1, .f32⟩
  | .hbm, ⟨9, _⟩ => ⟨S1x1, .f32⟩
  | .hbm, ⟨10, _⟩ => ⟨S1x131072, .f32⟩
  | .local _ .vmem, ⟨0, _⟩ => ⟨S1024x2048, .f32⟩
  | .local _ .vmem, ⟨1, _⟩ => ⟨S1024x2048, .f32⟩
  | .local _ .vmem, ⟨2, _⟩ => ⟨S1024x64, .f32⟩
  | .local _ .vmem, ⟨3, _⟩ => ⟨S64x1, .f32⟩
  | .local _ .vmem, ⟨4, _⟩ => ⟨S64x16, .f32⟩
  | .local _ .vmem, ⟨5, _⟩ => ⟨S16x1, .f32⟩
  | .local _ .vmem, ⟨6, _⟩ => ⟨S16x1, .f32⟩
  | .local _ .vmem, ⟨7, _⟩ => ⟨S1x1, .f32⟩
  | .local _ .vmem, ⟨8, _⟩ => ⟨S1x2048, .f32⟩
  | .local _ .vmem, ⟨9, _⟩ => ⟨S1x2048, .f32⟩
  | _, _ => ⟨S1024x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S64x1 : S64.ShapeCasts S64x1
  shapeCasts_S16_S16x1 : S16.ShapeCasts S16x1
  shapeCasts_S1_S1x1 : S1.ShapeCasts S1x1
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x2048 : S64x1.Broadcasts S64x2048
  inb_S64x16_S64x16_0_0 : ∀ a, (![0, 0] : Fin 2 → Nat) a + S64x16.size a ≤ S64x16.size a
  h_S64x16 : 0 < S64x16.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x2048 : S16x1.Broadcasts S16x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x2048 : S1x1.Broadcasts S1x2048
  inb_S1x2048_S1x2048_0_0 : ∀ a, (![0, 0] : Fin 2 → Nat) a + S1x2048.size a ≤ S1x2048.size a
  h_S1x2048 : 0 < S1x2048.numel
  dot_S1024x64_S1024x2048_S64x2048_0_0_1_1_n_n_wf : DotDims.WF S1024x64 S1024x2048 S64x2048 [0] [0] [1] [1] [] []
  dot_S64x16_S64x2048_S16x2048_0_0_1_1_n_n_wf : DotDims.WF S64x16 S64x2048 S16x2048 [0] [0] [1] [1] [] []
  dot_S16x1_S16x2048_S1x2048_0_0_1_1_n_n_wf : DotDims.WF S16x1 S16x2048 S1x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x131072.size a
  hwx0_0 : ∀ i : grid0.Coords, EltTy.bits .f32 = 32 ∨ (Rect.block (s := S1024x131072) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x131072.size a
  hwx0_7 : ∀ i : grid0.Coords, EltTy.bits .f32 = 32 ∨ (Rect.block (s := S1x131072) S1x2048.size (cc0_transform_7 i) (hinb0_7 i)).WholeWords (EltTy.packing .f32)

variable [Facts₀]

def dot_S1024x64_S1024x2048_S64x2048_0_0_1_1_n_n : DotDims S1024x64 S1024x2048 S64x2048 where
  lhsContracting := [0]
  rhsContracting := [0]
  lhsNonContracting := [1]
  rhsNonContracting := [1]
  lhsBatch := []
  rhsBatch := []
  wf := dot_S1024x64_S1024x2048_S64x2048_0_0_1_1_n_n_wf
def dot_S64x16_S64x2048_S16x2048_0_0_1_1_n_n : DotDims S64x16 S64x2048 S16x2048 where
  lhsContracting := [0]
  rhsContracting := [0]
  lhsNonContracting := [1]
  rhsNonContracting := [1]
  lhsBatch := []
  rhsBatch := []
  wf := dot_S64x16_S64x2048_S16x2048_0_0_1_1_n_n_wf
def dot_S16x1_S16x2048_S1x2048_0_0_1_1_n_n : DotDims S16x1 S16x2048 S1x2048 where
  lhsContracting := [0]
  rhsContracting := [0]
  lhsNonContracting := [1]
  rhsNonContracting := [1]
  lhsBatch := []
  rhsBatch := []
  wf := dot_S16x1_S16x2048_S1x2048_0_0_1_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x131072 : Shape := ⟨2, ![1024, 131072]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S131072x1024 : Shape := ⟨2, ![131072, 1024]⟩
abbrev S131072x64 : Shape := ⟨2, ![131072, 64]⟩
abbrev S1x64 : Shape := ⟨2, ![1, 64]⟩
abbrev S_ : Shape := ⟨0, ![]⟩
abbrev S131072x16 : Shape := ⟨2, ![131072, 16]⟩
abbrev S1x16 : Shape := ⟨2, ![1, 16]⟩
abbrev S131072x1 : Shape := ⟨2, ![131072, 1]⟩
abbrev S1x1 : Shape := ⟨2, ![1, 1]⟩
abbrev S131072 : Shape := ⟨1, ![131072]⟩
abbrev S1x131072 : Shape := ⟨2, ![1, 131072]⟩

abbrev nBuf : Space → Nat
  | .hbm => 28
  | .vmem => 0
  | .smem => 0
  | _ => 0

abbrev bufTy : (tb : Table) → Fin (tcTables nBuf tb) → BufTy
  | .hbm, ⟨0, _⟩ => ⟨S1024x131072, .f32⟩
  | .hbm, ⟨1, _⟩ => ⟨S1024x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S131072x1024, .f32⟩
  | .hbm, ⟨8, _⟩ => ⟨S131072x64, .f32⟩
  | .hbm, ⟨9, _⟩ => ⟨S1x64, .f32⟩
  | .hbm, ⟨10, _⟩ => ⟨S131072x64, .f32⟩
  | .hbm, ⟨11, _⟩ => ⟨S131072x64, .f32⟩
  | .hbm, ⟨12, _⟩ => ⟨S_, .f32⟩
  | .hbm, ⟨13, _⟩ => ⟨S131072x64, .f32⟩
  | .hbm, ⟨14, _⟩ => ⟨S131072x64, .f32⟩
  | .hbm, ⟨15, _⟩ => ⟨S131072x16, .f32⟩
  | .hbm, ⟨16, _⟩ => ⟨S1x16, .f32⟩
  | .hbm, ⟨17, _⟩ => ⟨S131072x16, .f32⟩
  | .hbm, ⟨18, _⟩ => ⟨S131072x16, .f32⟩
  | .hbm, ⟨19, _⟩ => ⟨S_, .f32⟩
  | .hbm, ⟨20, _⟩ => ⟨S131072x16, .f32⟩
  | .hbm, ⟨21, _⟩ => ⟨S131072x16, .f32⟩
  | .hbm, ⟨22, _⟩ => ⟨S131072x1, .f32⟩
  | .hbm, ⟨23, _⟩ => ⟨S1x1, .f32⟩
  | .hbm, ⟨24, _⟩ => ⟨S131072x1, .f32⟩
  | .hbm, ⟨25, _⟩ => ⟨S131072x1, .f32⟩
  | .hbm, ⟨26, _⟩ => ⟨S131072, .f32⟩
  | .hbm, ⟨27, _⟩ => ⟨S1x131072, .f32⟩
  | _, _ => ⟨S1024x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S1024x131072_S131072x1024_1_0 : S1024x131072.Transposes [1, 0] S131072x1024
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S131072_S1x131072_1 : S131072.BroadcastsInDim S1x131072 (![1] : Fin 1 → Fin S1x131072.rank)
  dot_S131072x1024_S1024x64_S131072x64_1_0_0_1_n_n_wf : DotDims.WF S131072x1024 S1024x64 S131072x64 [1] [0] [0] [1] [] []
  dot_S131072x64_S64x16_S131072x16_1_0_0_1_n_n_wf : DotDims.WF S131072x64 S64x16 S131072x16 [1] [0] [0] [1] [] []
  dot_S131072x16_S16x1_S131072x1_1_0_0_1_n_n_wf : DotDims.WF S131072x16 S16x1 S131072x1 [1] [0] [0] [1] [] []

variable [Facts₀]

def dot_S131072x1024_S1024x64_S131072x64_1_0_0_1_n_n : DotDims S131072x1024 S1024x64 S131072x64 where
  lhsContracting := [1]
  rhsContracting := [0]
  lhsNonContracting := [0]
  rhsNonContracting := [1]
  lhsBatch := []
  rhsBatch := []
  wf := dot_S131072x1024_S1024x64_S131072x64_1_0_0_1_n_n_wf
def dot_S131072x64_S64x16_S131072x16_1_0_0_1_n_n : DotDims S131072x64 S64x16 S131072x16 where
  lhsContracting := [1]
  rhsContracting := [0]
  lhsNonContracting := [0]
  rhsNonContracting := [1]
  lhsBatch := []
  rhsBatch := []
  wf := dot_S131072x64_S64x16_S131072x16_1_0_0_1_n_n_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf

class Facts : Prop extends Facts₀ where

variable [Facts]
-- ==== Proof.LibProductTN.lean ====
/-
  The transpose of a matrix times another, over the extended reals.

  Entry (a, b) of Aᵀ·B, for a k×r matrix A and a k×n matrix B, is the sum over the shared row coordinate c of
  A(c, a) · B(c, b). Addition of extended reals is commutative and associative, so this is a plain finite sum: no order
  of summation is left in it and nothing asks that an entry be finite.

  The matrix unit forms such a product when both operands are contracted along axis 0 (weights stored input-major, the
  activations stored feature-major: the product comes out feature-major with no transpose) and adds it to an accumulator;
  into a zero accumulator it leaves exactly that entry (`matmul_zero_apply`), whatever float formats the factors were
  narrowed to on the way, a change of format being the identity at the ideal values. The dimension numbers are given as a
  record equal to the literal one, so that a program's own record fits.
-/
import Idealize.ShloMosaic.Lib.ValueIdx
import Idealize.ShloMosaic.PureOps.Ideal.Laws

noncomputable section

namespace ProductTN

open Idealize.ShloMosaic Idealize.ShloMosaic.ValueIdx

variable {k r n : Nat}

/-- Entry (a, b) of Aᵀ·B. -/
def entry (A : (⟨2, ![k, r]⟩ : Shape).Idx → EReal) (B : (⟨2, ![k, n]⟩ : Shape).Idx → EReal) (a : Fin r) (b : Fin n) : EReal :=
  ∑ c : Fin k, A (ix2 c a) * B (ix2 c b)

/-- The matrix unit's product of a k×r by a k×n operand, both contracted along their first axis, accumulated into a
    zero block and read at (a, b), is that entry. -/
theorem matmul_zero_apply {φ₁ φ₂ : FTy}
    (d : DotDims ⟨2, ![k, r]⟩ ⟨2, ![k, n]⟩ ⟨2, ![r, n]⟩)
    (w : DotDims.WF ⟨2, ![k, r]⟩ ⟨2, ![k, n]⟩ ⟨2, ![r, n]⟩ [0] [0] [1] [1] [] [])
    (hd : d = ⟨[0], [0], [1], [1], [], [], w⟩)
    (prec : Option ContractPrecision) (A : FVec Ideal ⟨2, ![k, r]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  subst hd
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, r]⟩ ⟨2, ![k, n]⟩ ⟨2, ![r, n]⟩) k rfl rfl c
  have l2 : (⟨[0], [0], [1], [1], [], [], w⟩ : DotDims ⟨2, ![k, r]⟩ ⟨2, ![k, n]⟩ ⟨2, ![r, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, r]⟩ ⟨2, ![k, n]⟩ ⟨2, ![r, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end ProductTN

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Mlp.lean ====
/-
  A three-layer perceptron applied to one column of its input, over the extended reals.

  One column x of the 1024×131072 input (its 1024 features) goes through an affine map to 64 hidden units, the positive
  part, an affine map to 16 hidden units, the positive part, and an affine map to one output. An affine map at one output
  unit is the sum over the incoming units c of weight(c) · activation(c), plus the unit's bias. Every operation is the
  exact one on the extended reals: nothing is rounded, and a sum has no order.

  `G` lays the 131072 outputs out as the 1×131072 result array: entry (0, n) is the network applied to column n.
-/
import Idealize.ShloMosaic.Lib.ValueIdx
import Idealize.ShloMosaic.PureOps.Ideal

noncomputable section

namespace Mlp

open Idealize.ShloMosaic Idealize.ShloMosaic.ValueIdx

/-- An affine map at one output unit: the weighted sum of the incoming activations, plus the bias. -/
def affine {k : ℕ} (w h : Fin k → EReal) (b : EReal) : EReal := (∑ c : Fin k, w c * h c) + b

/-- The product of extended reals commutes, so the factors of each term may stand in either order. -/
theorem affine_comm {k : ℕ} (w h : Fin k → EReal) (b : EReal) : (∑ c : Fin k, h c * w c) + b = affine w h b := by
  unfold affine
  exact congrArg (· + b) (Finset.sum_congr rfl fun c _ => mul_comm _ _)

/-- The positive part. -/
def relu (a : EReal) : EReal := max a 0

/-- The network on one column: 1024 features → 64 units → 16 units → 1 output. -/
def net (x : Fin 1024 → EReal) (w1 : Fin 1024 → Fin 64 → EReal) (b1 : Fin 64 → EReal)
    (w2 : Fin 64 → Fin 16 → EReal) (b2 : Fin 16 → EReal) (w3 : Fin 16 → EReal) (b3 : EReal) : EReal :=
  affine w3 (fun e => relu (affine (fun d => w2 d e) (fun d => relu (affine (fun c => w1 c d) x (b1 d))) (b2 e))) b3

/-- The result array: entry (0, n) is the network on column n of `X`, with the weights and biases read off their arrays. -/
def G (X : (⟨2, ![1024, 131072]⟩ : Shape).Idx → EReal) (W1 : (⟨2, ![1024, 64]⟩ : Shape).Idx → EReal)
    (B1 : (⟨1, ![64]⟩ : Shape).Idx → EReal) (W2 : (⟨2, ![64, 16]⟩ : Shape).Idx → EReal) (B2 : (⟨1, ![16]⟩ : Shape).Idx → EReal)
    (W3 : (⟨2, ![16, 1]⟩ : Shape).Idx → EReal) (B3 : (⟨1, ![1]⟩ : Shape).Idx → EReal) :
    (⟨2, ![1, 131072]⟩ : Shape).Idx → EReal := fun i =>
  net (fun c => X (ix2 c (i 1))) (fun c d => W1 (ix2 c d)) (fun d => B1 (ix1 d)) (fun d e => W2 (ix2 d e))
    (fun e => B2 (ix1 e)) (fun e => W3 (ix2 e (0 : Fin 1))) (B3 (ix1 (0 : Fin 1)))

end Mlp

end
-- ==== Proof.KernelPoint.lean ====
/-
  What the kernel body stores at one grid point, entry by entry.

  The body holds a 1024×2048 block of the input (2048 consecutive columns, all 1024 features), the three weight matrices
  whole, and the three biases as columns. It works feature-major: each layer is a product on the matrix unit that
  contracts the first axis of the weights with the first axis of the activations, so that entry (unit, column) of the
  result is the sum over the incoming units c of weight(c, unit) · activation(c, column); the layer's bias column,
  broadcast along the 2048 columns, adds the unit's bias; the first two layers then take the positive part against a
  zero. The narrowing of the operands to bf16 before each product is the identity at the ideal values. So entry (0, q) of
  the stored 1×2048 row is the perceptron of `Mlp` applied to column q of the block.
-/
import proofs.«150521_j32160715112709_1_alg».proof.Proof.Gen.KernelIdeal.Skeleton
import proofs.«150521_j32160715112709_1_alg».proof.Proof.LibProductTN
import proofs.«150521_j32160715112709_1_alg».proof.Proof.LibKeepdims
import proofs.«150521_j32160715112709_1_alg».proof.Proof.Mlp
import Idealize.ShloMosaic.Lib.Pipeline.Value

noncomputable section

namespace Cert.KernelIdeal.Point

open Cert.KernelIdeal Cert.KernelIdeal.Gen Idealize.ShloMosaic Idealize.ShloMosaic.ValueIdx

/-- One layer of the body before its positive part, read at (unit a, column b): the product of the narrowed weights and
    activations into a zero accumulator, plus the bias column broadcast along the columns, is the affine map of unit a
    on column b of the activations. -/
theorem layer_apply {k r n : ℕ} (d : DotDims ⟨2, ![k, r]⟩ ⟨2, ![k, n]⟩ ⟨2, ![r, n]⟩)
    (w : DotDims.WF ⟨2, ![k, r]⟩ ⟨2, ![k, n]⟩ ⟨2, ![r, n]⟩ [0] [0] [1] [1] [] [])
    (hd : d = ⟨[0], [0], [1], [1], [], [], w⟩) (hlt : FTy.bits .bf16 < FTy.bits .f32)
    (Wt : FVec Ideal ⟨2, ![k, r]⟩ .f32) (H : FVec Ideal ⟨2, ![k, n]⟩ .f32) (bcol : FVec Ideal ⟨2, ![r, 1]⟩ .f32)
    (hsc : (⟨2, ![r, 1]⟩ : Shape).ShapeCasts ⟨2, ![r, 1]⟩) (hbc : (⟨2, ![r, 1]⟩ : Shape).Broadcasts ⟨2, ![r, n]⟩)
    (a : Fin r) (b : Fin n) :
    addf (matmul d none (truncf .bf16 Wt hlt) (truncf .bf16 H hlt) (constant (F := Ideal) ⟨2, ![r, n]⟩ .f32 0x00000000#32))
        (broadcastTo ⟨2, ![r, n]⟩ (shapeCast ⟨2, ![r, 1]⟩ bcol hsc) hbc) (ix2 a b)
      = Mlp.affine (fun c => Wt (ix2 c a)) (fun c => H (ix2 c b)) (bcol (ix2 a (0 : Fin 1))) := by
  rw [addf_apply, ProductTN.matmul_zero_apply d w hd, broadcastTo_a1_ab_apply, shapeCast_self]
  rfl

/-- The positive part as the body takes it, against a zero splat, at one entry. -/
theorem relu_apply {s : Shape} (v : FVec Ideal s .f32) (i : s.Idx) :
    maximumf v (broadcast s (Scalar.ofBits (F := Ideal) .f32 0x00000000#32)) i = Mlp.relu (v i) := by
  rw [maximumf_apply, broadcast_apply]
  show max (v i) (Ideal.ofBits .f32 0x00000000#32) = _
  rw [Ideal.ofBits_zero_f32]
  rfl

variable (x0 : Vec Ideal S1024x2048 .f32) (x1 : Vec Ideal S1024x64 .f32) (x2 : Vec Ideal S64x1 .f32)
  (x3 : Vec Ideal S64x16 .f32) (x4 : Vec Ideal S16x1 .f32) (x5 : Vec Ideal S16x1 .f32) (x6 : Vec Ideal S1x1 .f32)

/-- THE STORED ROW at column q: the perceptron on column q of the input block, with the weights read off their blocks and
    each bias off its column. -/
theorem pay_apply (q : Fin 2048) :
    k0_pay1 (F := Ideal) x0 x1 x2 x3 x4 x5 x6 (ix2 (0 : Fin 1) q)
      = Mlp.net (fun c => x0 (ix2 c q)) (fun c d => x1 (ix2 c d)) (fun d => x2 (ix2 d (0 : Fin 1)))
          (fun d e => x3 (ix2 d e)) (fun e => x4 (ix2 e (0 : Fin 1))) (fun e => x5 (ix2 e (0 : Fin 1)))
          (x6 (ix2 (0 : Fin 1) (0 : Fin 1))) := by
  unfold k0_pay1 Mlp.net
  refine (layer_apply dot_S16x1_S16x2048_S1x2048_0_0_1_1_n_n dot_S16x1_S16x2048_S1x2048_0_0_1_1_n_n_wf rfl _ x5 _ x6 _ _
    (0 : Fin 1) q).trans ?_
  refine congrArg (fun h => Mlp.affine (fun e => x5 (ix2 e (0 : Fin 1))) h (x6 (ix2 (0 : Fin 1) (0 : Fin 1)))) (funext fun e => ?_)
  refine (relu_apply _ (ix2 e q)).trans (congrArg Mlp.relu ?_)
  refine (layer_apply dot_S64x16_S64x2048_S16x2048_0_0_1_1_n_n dot_S64x16_S64x2048_S16x2048_0_0_1_1_n_n_wf rfl _ x3 _ x4 _ _
    e q).trans ?_
  refine congrArg (fun h => Mlp.affine (fun d => x3 (ix2 d e)) h (x4 (ix2 e (0 : Fin 1)))) (funext fun d => ?_)
  refine (relu_apply _ (ix2 d q)).trans (congrArg Mlp.relu ?_)
  exact layer_apply dot_S1024x64_S1024x2048_S64x2048_0_0_1_1_n_n dot_S1024x64_S1024x2048_S64x2048_0_0_1_1_n_n_wf rfl _ x1 x0 x2 _ _
    d q

end Cert.KernelIdeal.Point

end
-- ==== Proof.KernelArray.lean ====
/-
  The kernel's result array after the run is the perceptron of `Mlp`, column by column.

  The grid has 64 points. Point t holds columns 2048·t … 2048·t + 2047 of the input (all 1024 features), the three weight
  matrices whole, and the three bias columns, which the host made from the bias vectors by a reshape: entry (d, 0) of a
  column is entry d of its vector. It writes back columns 2048·t … 2048·t + 2047 of the one-row result. Column q of the
  input block at point t is column 2048·t + q of the input, so by `Point.pay_apply` what point t writes back is its
  block of `Mlp.G` of the argument arrays; the 64 blocks tile the 131072 columns (column n lies in the block of point
  n / 2048), so the array ends holding `Mlp.G` of the arguments.
-/
import proofs.«150521_j32160715112709_1_alg».proof.Proof.Gen.KernelIdeal.Value
import proofs.«150521_j32160715112709_1_alg».proof.Proof.KernelPoint
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The argument arrays, the result, and each point's input blocks -/

abbrev argX (c : Dev nD) : S1024x131072.Idx → EReal := m ((c : Thread nD τ).loc main_arg0)
abbrev argW1 (c : Dev nD) : S1024x64.Idx → EReal := m ((c : Thread nD τ).loc main_arg1)
abbrev argB1 (c : Dev nD) : S64.Idx → EReal := m ((c : Thread nD τ).loc main_arg2)
abbrev argW2 (c : Dev nD) : S64x16.Idx → EReal := m ((c : Thread nD τ).loc main_arg3)
abbrev argB2 (c : Dev nD) : S16.Idx → EReal := m ((c : Thread nD τ).loc main_arg4)
abbrev argW3 (c : Dev nD) : S16x1.Idx → EReal := m ((c : Thread nD τ).loc main_arg5)
abbrev argB3 (c : Dev nD) : S1.Idx → EReal := m ((c : Thread nD τ).loc main_arg6)

/-- The perceptron of the argument arrays, laid out as the 1×131072 result. -/
abbrev result (c : Dev nD) : S1x131072.Idx → EReal :=
  Mlp.G (argX m c) (argW1 m c) (argB1 m c) (argW2 m c) (argB2 m c) (argW3 m c) (argB3 m c)

abbrev blk0 (c : Dev nD) (t : Fin cfg0.N) : Vec Ideal S1024x2048 .f32 := iblk m c 0 t
abbrev blk1 (c : Dev nD) (t : Fin cfg0.N) : Vec Ideal S1024x64 .f32 := iblk m c 1 t
abbrev blk2 (c : Dev nD) (t : Fin cfg0.N) : Vec Ideal S64x1 .f32 := iblk m c 2 t
abbrev blk3 (c : Dev nD) (t : Fin cfg0.N) : Vec Ideal S64x16 .f32 := iblk m c 3 t
abbrev blk4 (c : Dev nD) (t : Fin cfg0.N) : Vec Ideal S16x1 .f32 := iblk m c 4 t
abbrev blk5 (c : Dev nD) (t : Fin cfg0.N) : Vec Ideal S16x1 .f32 := iblk m c 5 t
abbrev blk6 (c : Dev nD) (t : Fin cfg0.N) : Vec Ideal S1x1 .f32 := iblk m c 6 t

/-! ## The bias columns the host made -/

/-- The first layer's bias column is its bias vector reshaped. -/
theorem V_main_v0 (c : Dev nD) :
    (V m c main_v0 : S64x1.Idx → EReal) = shapeCast S64x1 (argB1 m c) shapeCasts_S64_S64x1 := by
  dsimp only [Gen.V, Gen.hostOps0]; after_results; rfl

/-- The second layer's bias column is its bias vector reshaped. -/
theorem V_main_v1 (c : Dev nD) :
    (V m c main_v1 : S16x1.Idx → EReal) = shapeCast S16x1 (argB2 m c) shapeCasts_S16_S16x1 := by
  dsimp only [Gen.V, Gen.hostOps0]; after_results; rfl

/-- The output layer's one-entry bias column is its one-entry bias vector reshaped. -/
theorem V_main_v2 (c : Dev nD) :
    (V m c main_v2 : S1x1.Idx → EReal) = shapeCast S1x1 (argB3 m c) shapeCasts_S1_S1x1 := by
  dsimp only [Gen.V, Gen.hostOps0]; after_results; rfl

/-! ## Where each window's block lies -/

/-- The printed index maps over the 64 points: the input and the result move along the columns with the point, every
    other window stays at block (0, 0). -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- Column q of the input block at point t is column 2048·t + q of the input. -/
theorem blk0_apply (c : Dev nD) (t : Fin cfg0.N) (k : Fin 1024) (q : Fin 2048) (n : Fin 131072)
    (hn : n.val = t.val * 2048 + q.val) : blk0 m c t (ix2 k q) = argX m c (ix2 k n) := by
  obtain ⟨e0, e1, -⟩ := idx_facts t
  show V m c main_arg0 (((cfg0.win 0).blk t).view.emb (ix2 k q)) = _
  rw [V_main_arg0]
  refine congrArg (argX m c) (funext fun a => Fin.ext ?_)
  match a with
  | ⟨0, _⟩ => show win0_0.index t (0 : Fin 2) * 1024 + 1 * k.val = k.val; rw [e0]; omega
  | ⟨1, _⟩ => show win0_0.index t (1 : Fin 2) * 2048 + 1 * q.val = n.val; rw [e1, hn]; omega

/-- The first layer's weights are held whole at every point. -/
theorem blk1_apply (c : Dev nD) (t : Fin cfg0.N) (k : Fin 1024) (d : Fin 64) :
    blk1 m c t (ix2 k d) = argW1 m c (ix2 k d) := by
  obtain ⟨-, -, e0, e1, -⟩ := idx_facts t
  show V m c main_arg1 (((cfg0.win 1).blk t).view.emb (ix2 k d)) = _
  rw [V_main_arg1]
  refine congrArg (argW1 m c) (funext fun a => Fin.ext ?_)
  match a with
  | ⟨0, _⟩ => show win0_1.index t (0 : Fin 2) * 1024 + 1 * k.val = k.val; rw [e0]; omega
  | ⟨1, _⟩ => show win0_1.index t (1 : Fin 2) * 64 + 1 * d.val = d.val; rw [e1]; omega

/-- The first layer's bias column, held whole: entry (d, 0) is entry d of the bias vector. -/
theorem blk2_apply (c : Dev nD) (t : Fin cfg0.N) (d : Fin 64) :
    blk2 m c t (ix2 d (0 : Fin 1)) = argB1 m c (ix1 d) := by
  obtain ⟨-, -, -, -, e0, e1, -⟩ := idx_facts t
  show (V m c main_v0 : S64x1.Idx → EReal) (((cfg0.win 2).blk t).view.emb (ix2 d (0 : Fin 1))) = _
  rw [V_main_v0]
  refine (congrArg (shapeCast S64x1 (argB1 m c) shapeCasts_S64_S64x1) (funext fun a => Fin.ext ?_)).trans
    (shapeCast_a_a1_apply (argB1 m c) shapeCasts_S64_S64x1 d (0 : Fin 1))
  match a with
  | ⟨0, _⟩ => show win0_2.index t (0 : Fin 2) * 64 + 1 * d.val = d.val; rw [e0]; omega
  | ⟨1, _⟩ => show win0_2.index t (1 : Fin 2) * 1 + 1 * 0 = 0; rw [e1]

/-- The second layer's weights are held whole at every point. -/
theorem blk3_apply (c : Dev nD) (t : Fin cfg0.N) (d : Fin 64) (e : Fin 16) :
    blk3 m c t (ix2 d e) = argW2 m c (ix2 d e) := by
  obtain ⟨-, -, -, -, -, -, e0, e1, -⟩ := idx_facts t
  show V m c main_arg3 (((cfg0.win 3).blk t).view.emb (ix2 d e)) = _
  rw [V_main_arg3]
  refine congrArg (argW2 m c) (funext fun a => Fin.ext ?_)
  match a with
  | ⟨0, _⟩ => show win0_3.index t (0 : Fin 2) * 64 + 1 * d.val = d.val; rw [e0]; omega
  | ⟨1, _⟩ => show win0_3.index t (1 : Fin 2) * 16 + 1 * e.val = e.val; rw [e1]; omega

/-- The second layer's bias column, held whole: entry (e, 0) is entry e of the bias vector. -/
theorem blk4_apply (c : Dev nD) (t : Fin cfg0.N) (e : Fin 16) :
    blk4 m c t (ix2 e (0 : Fin 1)) = argB2 m c (ix1 e) := by
  obtain ⟨-, -, -, -, -, -, -, -, e0, e1, -⟩ := idx_facts t
  show (V m c main_v1 : S16x1.Idx → EReal) (((cfg0.win 4).blk t).view.emb (ix2 e (0 : Fin 1))) = _
  rw [V_main_v1]
  refine (congrArg (shapeCast S16x1 (argB2 m c) shapeCasts_S16_S16x1) (funext fun a => Fin.ext ?_)).trans
    (shapeCast_a_a1_apply (argB2 m c) shapeCasts_S16_S16x1 e (0 : Fin 1))
  match a with
  | ⟨0, _⟩ => show win0_4.index t (0 : Fin 2) * 16 + 1 * e.val = e.val; rw [e0]; omega
  | ⟨1, _⟩ => show win0_4.index t (1 : Fin 2) * 1 + 1 * 0 = 0; rw [e1]

/-- The output layer's weights (one column) are held whole at every point. -/
theorem blk5_apply (c : Dev nD) (t : Fin cfg0.N) (e : Fin 16) :
    blk5 m c t (ix2 e (0 : Fin 1)) = argW3 m c (ix2 e (0 : Fin 1)) := by
  obtain ⟨-, -, -, -, -, -, -, -, -, -, e0, e1, -⟩ := idx_facts t
  show V m c main_arg5 (((cfg0.win 5).blk t).view.emb (ix2 e (0 : Fin 1))) = _
  rw [V_main_arg5]
  refine congrArg (argW3 m c) (funext fun a => Fin.ext ?_)
  match a with
  | ⟨0, _⟩ => show win0_5.index t (0 : Fin 2) * 16 + 1 * e.val = e.val; rw [e0]; omega
  | ⟨1, _⟩ => show win0_5.index t (1 : Fin 2) * 1 + 1 * 0 = 0; rw [e1]

/-- The output layer's bias, a 1×1 column: its entry is the one entry of the bias vector. -/
theorem blk6_apply (c : Dev nD) (t : Fin cfg0.N) :
    blk6 m c t (ix2 (0 : Fin 1) (0 : Fin 1)) = argB3 m c (ix1 (0 : Fin 1)) := by
  obtain ⟨-, -, -, -, -, -, -, -, -, -, -, -, e0, e1, -⟩ := idx_facts t
  show (V m c main_v2 : S1x1.Idx → EReal) (((cfg0.win 6).blk t).view.emb (ix2 (0 : Fin 1) (0 : Fin 1))) = _
  rw [V_main_v2]
  refine (congrArg (shapeCast S1x1 (argB3 m c) shapeCasts_S1_S1x1) (funext fun a => Fin.ext ?_)).trans
    (shapeCast_a_a1_apply (argB3 m c) shapeCasts_S1_S1x1 (0 : Fin 1) (0 : Fin 1))
  match a with
  | ⟨0, _⟩ => show win0_6.index t (0 : Fin 2) * 1 + 1 * 0 = 0; rw [e0]
  | ⟨1, _⟩ => show win0_6.index t (1 : Fin 2) * 1 + 1 * 0 = 0; rw [e1]

/-! ## What a point writes back -/

/-- Entry y of the row point t stores is the result's entry at y's place in the array. -/
theorem point_eq (c : Dev nD) (t : Fin cfg0.N) (y : S1x2048.Idx) :
    k0_pay1 (F := Ideal) (blk0 m c t) (blk1 m c t) (blk2 m c t) (blk3 m c t) (blk4 m c t) (blk5 m c t) (blk6 m c t) y
      = result m c (((cfg0.win 7).blk t).view.emb y) := by
  obtain ⟨u, q, rfl⟩ : ∃ (u : Fin 1) (q : Fin 2048), y = ix2 u q := ⟨y 0, y 1, eq_ix2 y⟩
  obtain rfl : u = 0 := Subsingleton.elim _ _
  have e1 := (idx_facts t).2.2.2.2.2.2.2.2.2.2.2.2.2.2.2
  have hn : ((((cfg0.win 7).blk t).view.emb (ix2 (0 : Fin 1) q)) 1).val = t.val * 2048 + q.val := by
    show win0_7.index t (1 : Fin 2) * 2048 + 1 * q.val = _
    rw [e1]; omega
  refine (Point.pay_apply (blk0 m c t) (blk1 m c t) (blk2 m c t) (blk3 m c t) (blk4 m c t) (blk5 m c t) (blk6 m c t) q).trans ?_
  rw [show (fun k : Fin 1024 => blk0 m c t (ix2 k q)) = fun k => argX m c (ix2 k ((((cfg0.win 7).blk t).view.emb (ix2 (0 : Fin 1) q)) 1))
      from funext fun k => blk0_apply m c t k q _ hn,
    show (fun (k : Fin 1024) (d : Fin 64) => blk1 m c t (ix2 k d)) = fun k d => argW1 m c (ix2 k d)
      from funext fun k => funext fun d => blk1_apply m c t k d,
    show (fun d : Fin 64 => blk2 m c t (ix2 d (0 : Fin 1))) = fun d => argB1 m c (ix1 d) from funext fun d => blk2_apply m c t d,
    show (fun (d : Fin 64) (e : Fin 16) => blk3 m c t (ix2 d e)) = fun d e => argW2 m c (ix2 d e)
      from funext fun d => funext fun e => blk3_apply m c t d e,
    show (fun e : Fin 16 => blk4 m c t (ix2 e (0 : Fin 1))) = fun e => argB2 m c (ix1 e) from funext fun e => blk4_apply m c t e,
    show (fun e : Fin 16 => blk5 m c t (ix2 e (0 : Fin 1))) = fun e => argW3 m c (ix2 e (0 : Fin 1))
      from funext fun e => blk5_apply m c t e,
    blk6_apply m c t]
  rfl

/-- WHAT POINT t WRITES BACK is block t of the result. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S1024x2048) hz, View.ld_unit_zero (S := S1024x64) hz, View.ld_unit_zero (S := S64x1) hz,
    View.ld_unit_zero (S := S64x16) hz, View.ld_unit_zero (S := S16x1) hz, View.ld_unit_zero (S := S1x1) hz]
  funext y
  exact point_eq m c t y

/-! ## The blocks tile the array -/

/-- An index of the result is in point t's block iff each coordinate is in the block's range on its axis. -/
theorem mem_blk (t : Fin cfg0.N) (i : S1x131072.Idx) :
    i ∈ ((cfg0.win 7).blk t).view.set ↔ ∀ a : Fin 2, win0_7.index t a * S1x2048.size a ≤ (i a).val
      ∧ (i a).val < win0_7.index t a * S1x2048.size a + S1x2048.size a := by
  show i ∈ ((View.whole main_v3).slice (win0_7.rect t)).set ↔ _
  rw [View.set_slice_whole, Rect.mem_set_unit]
  exact Iff.rfl

/-- THE ARRAY after the run is the result: column n lies in the block of point n / 2048. -/
theorem final (c : Dev nD) : (dats m 0 c).arrAt 7 cfg0.N = result m c :=
  (dats m 0 c).arrAt_eq_of_cover 7 (result m c) (fun t _ => flushed_eq m c t) fun i => by
    have hi0 : (i 0).val < 1 := (i 0).isLt
    have hi1 : (i 1).val < 131072 := (i 1).isLt
    obtain ⟨t, ht⟩ : ∃ t : Fin cfg0.N, t.val = (i 1).val / 2048 :=
      ⟨⟨(i 1).val / 2048, by rw [show cfg0.N = 64 from N_0]; omega⟩, rfl⟩
    have e0 := (idx_facts t).2.2.2.2.2.2.2.2.2.2.2.2.2.2.1
    have e1 := (idx_facts t).2.2.2.2.2.2.2.2.2.2.2.2.2.2.2
    refine ⟨t, flush0_7 t, ?_⟩
    rw [mem_blk]
    intro a
    match a with
    | ⟨0, _⟩ =>
      show win0_7.index t (0 : Fin 2) * 1 ≤ (i 0).val ∧ (i 0).val < win0_7.index t (0 : Fin 2) * 1 + 1
      rw [e0]; omega
    | ⟨1, _⟩ =>
      show win0_7.index t (1 : Fin 2) * 2048 ≤ (i 1).val ∧ (i 1).val < win0_7.index t (1 : Fin 2) * 2048 + 2048
      rw [e1, ht]; omega

/-! ## The run, read -/

/-- Every weakly fair execution of the kernel's program ends with the result array at the perceptron of the arguments, and
    the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (Value.run_blocks m ρ)

end Cert.KernelIdeal.Hand

end
-- ==== Proof.RefIsMlp.lean ====
/-
  The reference's result is the perceptron of `Mlp`, column by column.

  The reference transposes the input, so that row n of the transposed array is column n of the input, and then applies
  three host matrix products, each with its bias row added and (for the first two) the positive part taken against a
  zero. Read at one entry, a host product is the sum over the contracted coordinate of activation · weight; the
  perceptron writes each term as weight · activation, and the product of extended reals commutes. The bias row of a
  layer, broadcast down the 131072 rows, contributes the bias of the entry's unit. The last layer's single column is
  then laid out as the one row of the result.
-/
import proofs.«150521_j32160715112709_1_alg».proof.Proof.Gen.ReferenceIdeal.Read
import proofs.«150521_j32160715112709_1_alg».proof.Proof.Mlp

noncomputable section

namespace Cert.ReferenceIdeal.RefValue

open Cert.ReferenceIdeal Cert.ReferenceIdeal.Read Idealize.ShloMosaic Idealize.ShloMosaic.ValueIdx

variable (X : (⟨S1024x131072, .f32⟩ : BufTy).Contents (Elt Ideal)) (W1 : (⟨S1024x64, .f32⟩ : BufTy).Contents (Elt Ideal))
  (B1 : (⟨S64, .f32⟩ : BufTy).Contents (Elt Ideal)) (W2 : (⟨S64x16, .f32⟩ : BufTy).Contents (Elt Ideal))
  (B2 : (⟨S16, .f32⟩ : BufTy).Contents (Elt Ideal)) (W3 : (⟨S16x1, .f32⟩ : BufTy).Contents (Elt Ideal))
  (B3 : (⟨S1, .f32⟩ : BufTy).Contents (Elt Ideal))

/-- The first hidden layer at row n (column n of the input) and unit d. -/
theorem hidden1 (n : Fin 131072) (d : Fin 64) :
    val_main_v5 (F := Ideal) X W1 B1 (ix2 n d)
      = Mlp.relu (Mlp.affine (fun c => W1 (ix2 c d)) (fun c => X (ix2 c n)) (B1 (ix1 d))) := by
  rw [val_main_v5_apply, val_main_v4_apply, val_main_v1_apply, val_main_v3_apply, val_main_v2_apply,
    val_main_call0_v0_apply, val_main_call0_cst_apply]
  simp only [val_main_v0_apply]
  have e0 : ∀ c : Fin 1024, idx_main_v0 (lidx_main_v1 (ix2 n d) c) = ix2 c n := fun c =>
    funext fun a => Fin.ext (by match a with | ⟨0, _⟩ => rfl | ⟨1, _⟩ => rfl)
  have e1 : ∀ c : Fin 1024, ridx_main_v1 (ix2 n d) c = ix2 c d := fun c =>
    funext fun a => Fin.ext (by match a with | ⟨0, _⟩ => rfl | ⟨1, _⟩ => rfl)
  have e2 : idx_main_v2 (idx_main_v3 (ix2 n d)) = ix1 d :=
    funext fun a => Fin.ext (by match a with | ⟨0, _⟩ => rfl)
  simp only [e0, e1, e2]
  show max ((∑ c : Fin 1024, X (ix2 c n) * W1 (ix2 c d)) + B1 (ix1 d)) (Ideal.ofBits .f32 0x00000000#32) = _
  rw [Ideal.ofBits_zero_f32, Mlp.affine_comm]
  rfl

/-- The second hidden layer at row n and unit e. -/
theorem hidden2 (n : Fin 131072) (e : Fin 16) :
    val_main_v10 (F := Ideal) X W1 B1 W2 B2 (ix2 n e)
      = Mlp.relu (Mlp.affine (fun d => W2 (ix2 d e))
          (fun d => Mlp.relu (Mlp.affine (fun c => W1 (ix2 c d)) (fun c => X (ix2 c n)) (B1 (ix1 d)))) (B2 (ix1 e))) := by
  rw [val_main_v10_apply, val_main_v9_apply, val_main_v6_apply, val_main_v8_apply, val_main_v7_apply,
    val_main_call1_v0_apply, val_main_call1_cst_apply]
  have e0 : ∀ d : Fin 64, lidx_main_v6 (ix2 n e) d = ix2 n d := fun d =>
    funext fun a => Fin.ext (by match a with | ⟨0, _⟩ => rfl | ⟨1, _⟩ => rfl)
  have e1 : ∀ d : Fin 64, ridx_main_v6 (ix2 n e) d = ix2 d e := fun d =>
    funext fun a => Fin.ext (by match a with | ⟨0, _⟩ => rfl | ⟨1, _⟩ => rfl)
  have e2 : idx_main_v7 (idx_main_v8 (ix2 n e)) = ix1 e :=
    funext fun a => Fin.ext (by match a with | ⟨0, _⟩ => rfl)
  simp only [e0, e1, e2, hidden1]
  show max ((∑ d : Fin 64, _ * W2 (ix2 d e)) + B2 (ix1 e)) (Ideal.ofBits .f32 0x00000000#32) = _
  rw [Ideal.ofBits_zero_f32, Mlp.affine_comm]
  rfl

/-- The output layer at row n: its one column. -/
theorem output (n : Fin 131072) :
    val_main_v14 (F := Ideal) X W1 B1 W2 B2 W3 B3 (ix2 n (0 : Fin 1))
      = Mlp.net (fun c => X (ix2 c n)) (fun c d => W1 (ix2 c d)) (fun d => B1 (ix1 d)) (fun d e => W2 (ix2 d e))
          (fun e => B2 (ix1 e)) (fun e => W3 (ix2 e (0 : Fin 1))) (B3 (ix1 (0 : Fin 1))) := by
  rw [val_main_v14_apply, val_main_v11_apply, val_main_v13_apply, val_main_v12_apply]
  have e0 : ∀ e : Fin 16, lidx_main_v11 (ix2 n (0 : Fin 1)) e = ix2 n e := fun e =>
    funext fun a => Fin.ext (by match a with | ⟨0, _⟩ => rfl | ⟨1, _⟩ => rfl)
  have e1 : ∀ e : Fin 16, ridx_main_v11 (ix2 n (0 : Fin 1)) e = ix2 e (0 : Fin 1) := fun e =>
    funext fun a => Fin.ext (by match a with | ⟨0, _⟩ => rfl | ⟨1, _⟩ => rfl)
  have e2 : idx_main_v12 (idx_main_v13 (ix2 n (0 : Fin 1))) = ix1 (0 : Fin 1) :=
    funext fun a => Fin.ext (by match a with | ⟨0, _⟩ => rfl)
  simp only [e0, e1, e2, hidden2]
  show (∑ e : Fin 16, _ * W3 (ix2 e (0 : Fin 1))) + B3 (ix1 (0 : Fin 1)) = _
  rw [Mlp.affine_comm]
  rfl

/-- The reference's result array is `Mlp.G` of its arguments: entry (0, n) is the last layer's entry (n, 0). -/
theorem result_eq : val_main_v16 (F := Ideal) X W1 B1 W2 B2 W3 B3 = Mlp.G X W1 B1 W2 B2 W3 B3 := by
  funext i
  obtain ⟨u, n, rfl⟩ : ∃ (u : Fin 1) (n : Fin 131072), i = ix2 u n := ⟨i 0, i 1, eq_ix2 i⟩
  rw [val_main_v16_apply, val_main_v15_apply]
  have e : idx_main_v15 (idx_main_v16 (ix2 u n)) = ix2 n (0 : Fin 1) :=
    funext fun a => Fin.ext (by match a with | ⟨0, _⟩ => exact Nat.div_one _ | ⟨1, _⟩ => rfl)
  rw [e, output]
  rfl

end Cert.ReferenceIdeal.RefValue

end
-- ==== Proof.lean ====
/- A three-layer perceptron (1024 features → 64 → 16 → 1 output, the positive part after the first two layers) applied to
   each of the 131072 columns of its input: the kernel against the reference.

   The kernel walks the columns in 64 blocks of 2048 and works feature-major, every layer a product that contracts the
   first axis of the weights with the first axis of the activations; the reference transposes the input and works
   row-major with ordinary products. At the ideal values both leave, at entry (0, n) of the 1×131072 result,
       b3 + Σ_e W3(e,0) · max(b2(e) + Σ_d W2(d,e) · max(b1(d) + Σ_c W1(c,d) · X(c,n), 0), 0)
   (`Mlp.G`): a narrowing to bf16 is the identity there, a sum of extended reals has no order, and the one algebraic
   law between the two spellings is that the product of extended reals commutes, which holds at the infinities too, so the
   inputs' finiteness is never used.

   Proof/Mlp.lean states that function; Proof/RefIsMlp.lean reads the reference's run as it, stage by stage;
   Proof/KernelPoint.lean reads the row one grid point stores as it on the point's block of columns (over
   Proof/LibProductTN.lean, an entry of Aᵀ·B on the matrix unit, and Proof/LibKeepdims.lean, a bias column read at an
   entry); Proof/KernelArray.lean places each point's block in the input and shows the 64 stored rows tile the result.
   No operation of the kernel is rewritten for the ideal reading: its idealization is its own text read at the ideal
   values, and the fourth conjunct has nothing to state. -/
import proofs.«150521_j32160715112709_1_alg».proof.Defs
import proofs.«150521_j32160715112709_1_alg».proof.Proof.Gen.Kernel
import proofs.«150521_j32160715112709_1_alg».proof.Proof.Gen.Kernel.Skeleton
import proofs.«150521_j32160715112709_1_alg».proof.Proof.Gen.Kernel.Launch
import proofs.«150521_j32160715112709_1_alg».proof.Proof.Gen.Kernel.Points
import proofs.«150521_j32160715112709_1_alg».proof.Proof.Gen.Kernel.Frame
import proofs.«150521_j32160715112709_1_alg».proof.Proof.Gen.KernelIdeal
import proofs.«150521_j32160715112709_1_alg».proof.Proof.Gen.KernelIdeal.Skeleton
import proofs.«150521_j32160715112709_1_alg».proof.Proof.Gen.KernelIdeal.Launch
import proofs.«150521_j32160715112709_1_alg».proof.Proof.Gen.KernelIdeal.Points
import proofs.«150521_j32160715112709_1_alg».proof.Proof.Gen.KernelIdeal.Frame
import proofs.«150521_j32160715112709_1_alg».proof.Proof.Gen.ReferenceIdeal
import proofs.«150521_j32160715112709_1_alg».proof.Proof.Gen.Pre_finite_inputs
import proofs.«150521_j32160715112709_1_alg».proof.Proof.Gen.KernelIdeal.Value
import proofs.«150521_j32160715112709_1_alg».proof.Proof.Gen.ReferenceIdeal.Run
import proofs.«150521_j32160715112709_1_alg».proof.Proof.Gen.ReferenceIdeal.Read
import proofs.«150521_j32160715112709_1_alg».proof.Proof.KernelArray
import proofs.«150521_j32160715112709_1_alg».proof.Proof.RefIsMlp
import Idealize.ShloMosaic.Adequacy
import Idealize.ShloMosaic.Init

noncomputable section

namespace Cert.Proof

open Idealize.ShloMosaic Idealize.SL.Sem

/-- The kernel as printed runs to the end and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the perceptron of its arguments (`Hand.run`), the reference's at its last stage,
    which is the perceptron of its arguments (`RefValue.result_eq`); the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
